-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S16x2048 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S16x2048 .f32 := Host.absf main_arg4
  let main_cst_6 : FVec F S_ .f32 := constant S_ .f32 0x7F800000#32
  let main_v20 : FVec F S16x2048 .f32 := broadcastInDim S16x2048 ![] bcast_S_S16x2048 main_cst_6
  let main_v21 : IVec S16x2048 1 := cmpf .olt main_v19 main_v20
  let main_c_7 : IVec S_ 1 := constantI S_ 1 1#1
  let main_v22 : IVec S_ 1 := (fun x v => Host.reduce IntOp.andi x v reducesTo_S16x2048_S_d0_1 h_S_) main_v21 main_c_7
  let main_v23 : IVec S_ 1 := andi main_v18 main_v22
  main_v23

def fn {F : FTy → Type} [FloatOps F] (main_arg0 : FVec F S8x2048x2048 .f32) (main_arg1 : FVec F S2048x2048 .f32) (main_arg2 : FVec F S2048 .f32) (main_arg3 : FVec F S2048x16 .f32) (main_arg4 : FVec F S16x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S512x2048 : Shape := ⟨2, ![512, 2048]⟩
abbrev S512x16 : Shape := ⟨2, ![512, 16]⟩
abbrev S1x512x2048 : Shape := ⟨3, ![1, 512, 2048]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048x16, .f32⟩
  | .hbm, ⟨4, _⟩ => ⟨S16x2048, .f32⟩
  | .hbm, ⟨5, _⟩ => ⟨S2048x2048, .bf16⟩
  | .hbm, ⟨6, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S512x16, .f32⟩
  | .local _ .vmem, ⟨3, _⟩ => ⟨S512x16, .f32⟩
  | .local _ .vmem, ⟨4, _⟩ => ⟨S16x2048, .f32⟩
  | .local _ .vmem, ⟨5, _⟩ => ⟨S512x2048, .bf16⟩
  | .local _ .vmem, ⟨6, _⟩ => ⟨S512x2048, .bf16⟩
  | .local _ .vmem, ⟨7, _⟩ => ⟨S1x512x2048, .f32⟩
  | .local _ .vmem, ⟨8, _⟩ => ⟨S1x512x2048, .f32⟩
  | .local _ .vmem, ⟨9, _⟩ => ⟨S2048x2048, .bf16⟩
  | .local _ .vmem, ⟨10, _⟩ => ⟨S2048, .f32⟩
  | .local _ .vmem, ⟨11, _⟩ => ⟨S1x512x2048, .f32⟩
  | .local _ .vmem, ⟨12, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x16_S512x16_0_0 : ∀ a, (![0, 0] : Fin 2 → Nat) a + S512x16.size a ≤ S512x16.size a
  h_S512x16 : 0 < S512x16.numel
  inb_S16x2048_S16x2048_0_0 : ∀ a, (![0, 0] : Fin 2 → Nat) a + S16x2048.size a ≤ S16x2048.size a
  h_S16x2048 : 0 < S16x2048.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  shapeCasts_S512x2048_S1x512x2048 : S512x2048.ShapeCasts S1x512x2048
  dot_S512x16_S16x2048_S512x2048_1_0_0_1_n_n_wf : DotDims.WF S512x16 S16x2048 S512x2048 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S2048x16.size a
  hwx0_1 : ∀ i : grid0.Coords, EltTy.bits .f32 = 32 ∨ (Rect.block (s := S2048x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S8x2048x2048.size a
  hwx1_0 : ∀ i : grid1.Coords, EltTy.bits .f32 = 32 ∨ (Rect.block (s := S8x2048x2048) S1x512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S8x2048x2048.size a
  hwx1_3 : ∀ i : grid1.Coords, EltTy.bits .f32 = 32 ∨ (Rect.block (s := S8x2048x2048) S1x512x2048.size (cc1_transform_3 i) (hinb1_3 i)).WholeWords (EltTy.packing .f32)

variable [Facts₀]

def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩
abbrev S1x1x2048 : Shape := ⟨3, ![1, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048x16, .f32⟩
  | .hbm, ⟨4, _⟩ => ⟨S16x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S8x2048x2048, .f32⟩
  | .hbm, ⟨11, _⟩ => ⟨S1x1x2048, .f32⟩
  | .hbm, ⟨12, _⟩ => ⟨S8x2048x2048, .f32⟩
  | .hbm, ⟨13, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S2048x16_S16x2048_S2048x2048_1_0_0_1_n_n_wf : DotDims.WF S2048x16 S16x2048 S2048x2048 [1] [0] [0] [1] [] []
  dot_S8x2048x2048_S2048x2048_S8x2048x2048_2_1_01_0_n_n_wf : DotDims.WF S8x2048x2048 S2048x2048 S8x2048x2048 [2] [1] [0, 1] [0] [] []

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.Spec.lean ====
/-
  The mathematics both programs compute, as functions of the five argument arrays over the extended reals.

  A LoRA-merged linear layer: the weight is first merged, `M[o, d] = W[o, d] + 2 · Σ_r B[o, r] · A[r, d]`
  (rank `r < 16`), and then applied with a bias, `Y[b, s, o] = (Σ_d X[b, s, d] · M[o, d]) + bias[o]`.
  Nothing here depends on how the sums are tiled or on the order of their terms.
-/
import Idealize.ShloMosaic.PureOps.Ideal
import Idealize.ShloMosaic.Lib.ValueIdx

noncomputable section

namespace Cert.LoraSpec

open Idealize.ShloMosaic Idealize.ShloMosaic.ValueIdx

/-- The LoRA scale `alpha / rank = 32 / 16`, the float `2.0`. -/
abbrev scale : EReal := Ideal.ofBits .f32 0x40000000#32

/-- The merged weight: `M[o, d] = W[o, d] + 2 · Σ_r B[o, r] · A[r, d]`. -/
def merged (W : (⟨2, ![2048, 2048]⟩ : Shape).Idx → EReal) (B : (⟨2, ![2048, 16]⟩ : Shape).Idx → EReal)
    (A : (⟨2, ![16, 2048]⟩ : Shape).Idx → EReal) : (⟨2, ![2048, 2048]⟩ : Shape).Idx → EReal :=
  fun i => W i + scale * ∑ r : Fin 16, B (ix2 (i 0) r) * A (ix2 r (i 1))

/-- A linear layer with weight `M` (rows indexed by the output feature) and a bias:
    `Y[b, s, o] = (Σ_d X[b, s, d] · M[o, d]) + bias[o]`. -/
def linear (X : (⟨3, ![8, 2048, 2048]⟩ : Shape).Idx → EReal) (M : (⟨2, ![2048, 2048]⟩ : Shape).Idx → EReal)
    (bias : (⟨1, ![2048]⟩ : Shape).Idx → EReal) : (⟨3, ![8, 2048, 2048]⟩ : Shape).Idx → EReal :=
  fun i => (∑ d : Fin 2048, X (ix3 (i 0) (i 1) d) * M (ix2 (i 2) d)) + bias (ix1 (i 2))

/-- The whole layer: the merged weight applied to `X`. -/
def result (X : (⟨3, ![8, 2048, 2048]⟩ : Shape).Idx → EReal) (W : (⟨2, ![2048, 2048]⟩ : Shape).Idx → EReal)
    (bias : (⟨1, ![2048]⟩ : Shape).Idx → EReal) (B : (⟨2, ![2048, 16]⟩ : Shape).Idx → EReal)
    (A : (⟨2, ![16, 2048]⟩ : Shape).Idx → EReal) : (⟨3, ![8, 2048, 2048]⟩ : Shape).Idx → EReal :=
  linear X (merged W B A) bias

end Cert.LoraSpec

end
-- ==== Proof.MergeRegion.lean ====
/-
  The first kernel region (the weight merge), read as a value at the exact instance.

  Its grid has four points; point `t` stages rows `512·t … 512·t + 511` of `W` and of `B`, all of `A`, and writes
  the same rows of the merged weight. The body's stored value at row `p`, column `q` of the block is
  `Wblk[p, q] + 2 · Σ_r Bblk[p, r] · A[r, q]` (the product into a zero accumulator is the plain sum; the change of format
  to bf16 is the identity on the extended reals). The four row blocks tile the array, so after the region the
  output array is `LoraSpec.merged` of the region's input arrays, whatever those are.
-/
import proofs.«166567_j55319178772936_1_alg».proof.Proof.Gen.KernelIdeal.Frame
import proofs.«166567_j55319178772936_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Merge

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product, read at an index -/

theorem lhs_0 (i : S512x2048.Idx) (q : dot_S512x16_S16x2048_S512x2048_1_0_0_1_n_n.contr.Idx) :
    (dot_S512x16_S16x2048_S512x2048_1_0_0_1_n_n.lhsIdx i q 0).val = (i 0).val := by
  unfold DotDims.lhsIdx
  rw [dif_neg (show ¬(0 : Fin S512x16.rank) ∈ dot_S512x16_S16x2048_S512x2048_1_0_0_1_n_n.lhsBatch by decide), dif_pos (show (0 : Fin S512x16.rank) ∈ dot_S512x16_S16x2048_S512x2048_1_0_0_1_n_n.lhsNonContracting by decide)]
  rfl
theorem lhs_1 (i : S512x2048.Idx) (q : dot_S512x16_S16x2048_S512x2048_1_0_0_1_n_n.contr.Idx) :
    (dot_S512x16_S16x2048_S512x2048_1_0_0_1_n_n.lhsIdx i q 1).val = (q ⟨0, by decide⟩).val :=
  dot_S512x16_S16x2048_S512x2048_1_0_0_1_n_n.lhsIdx_val_of_single rfl i q
theorem rhs_0 (i : S512x2048.Idx) (q : dot_S512x16_S16x2048_S512x2048_1_0_0_1_n_n.contr.Idx) :
    (dot_S512x16_S16x2048_S512x2048_1_0_0_1_n_n.rhsIdx i q 0).val = (q ⟨0, by decide⟩).val :=
  dot_S512x16_S16x2048_S512x2048_1_0_0_1_n_n.rhsIdx_val_of_single rfl i q
theorem rhs_1 (i : S512x2048.Idx) (q : dot_S512x16_S16x2048_S512x2048_1_0_0_1_n_n.contr.Idx) :
    (dot_S512x16_S16x2048_S512x2048_1_0_0_1_n_n.rhsIdx i q 1).val = (i 1).val := by
  unfold DotDims.rhsIdx
  rw [dif_neg (show ¬(1 : Fin S16x2048.rank) ∈ dot_S512x16_S16x2048_S512x2048_1_0_0_1_n_n.rhsBatch by decide), dif_pos (show (1 : Fin S16x2048.rank) ∈ dot_S512x16_S16x2048_S512x2048_1_0_0_1_n_n.rhsNonContracting by decide)]
  rfl

/-- The block's low-rank product into a zero accumulator: `(Bblk · A)[p, q] = Σ_r Bblk[p, r] · A[r, q]`. -/
theorem product_apply (v0 : FVec Ideal S512x16 .f32) (v1 : FVec Ideal S16x2048 .f32) (i : S512x2048.Idx) :
    matmul dot_S512x16_S16x2048_S512x2048_1_0_0_1_n_n none v0 v1 (constant (F := Ideal) S512x2048 .f32 0x00000000#32) i
      = ∑ k : Fin 16, v0 (ix2 (i 0) k) * v1 (ix2 k (i 1)) := by
  show FloatOps.matmul dot_S512x16_S16x2048_S512x2048_1_0_0_1_n_n none v0 v1 (constant (F := Ideal) S512x2048 .f32 0x00000000#32) i = _
  rw [Ideal.matmul_constant_zero_apply, ← Equiv.sum_comp (ValueIdx.contrEquiv1 dot_S512x16_S16x2048_S512x2048_1_0_0_1_n_n 16 rfl rfl).symm]
  refine Finset.sum_congr rfl fun k _ => ?_
  have hk := ValueIdx.contrEquiv1_symm_val dot_S512x16_S16x2048_S512x2048_1_0_0_1_n_n 16 rfl rfl k
  have el : dot_S512x16_S16x2048_S512x2048_1_0_0_1_n_n.lhsIdx i ((ValueIdx.contrEquiv1 dot_S512x16_S16x2048_S512x2048_1_0_0_1_n_n 16 rfl rfl).symm k) = ix2 (i 0) k := funext fun a => Fin.ext (by
    match a with
    | ⟨0, _⟩ => exact lhs_0 _ _
    | ⟨1, _⟩ => exact (lhs_1 _ _).trans hk)
  have er : dot_S512x16_S16x2048_S512x2048_1_0_0_1_n_n.rhsIdx i ((ValueIdx.contrEquiv1 dot_S512x16_S16x2048_S512x2048_1_0_0_1_n_n 16 rfl rfl).symm k) = ix2 k (i 1) := funext fun a => Fin.ext (by
    match a with
    | ⟨0, _⟩ => exact (rhs_0 _ _).trans hk
    | ⟨1, _⟩ => exact rhs_1 _ _)
  rw [el, er]
  rfl

/-- What the body stores, entry by entry: `Wblk[p, q] + 2 · Σ_r Bblk[p, r] · A[r, q]`. -/
theorem stored_apply (v0 : FVec Ideal S512x16 .f32) (v1 : FVec Ideal S16x2048 .f32) (v3 : FVec Ideal S512x2048 .f32) (i : S512x2048.Idx) :
    k0_pay1 (F := Ideal) v0 v1 v3 i = v3 i + Cert.LoraSpec.scale * ∑ k : Fin 16, v0 (ix2 (i 0) k) * v1 (ix2 k (i 1)) := by
  unfold k0_pay1
  show v3 i + Cert.LoraSpec.scale * matmul dot_S512x16_S16x2048_S512x2048_1_0_0_1_n_n none v0 v1 (constant (F := Ideal) S512x2048 .f32 0x00000000#32) i = _
  rw [product_apply]

/-- One stored entry against the specification, over plain arrays: if the `W` block's entry is `W` at the array index
    `e`, the `B` block's row is row `e 0` of `B`, and the `A` block's column is column `e 1` of `A`, the stored
    entry is the merged weight at `e`. -/
theorem point_eq (W : FVec Ideal S2048x2048 .f32) (B : FVec Ideal S2048x16 .f32) (A : FVec Ideal S16x2048 .f32)
    (wb : FVec Ideal S512x2048 .f32) (bb : FVec Ideal S512x16 .f32) (ab : FVec Ideal S16x2048 .f32)
    (j : S512x2048.Idx) (e : S2048x2048.Idx)
    (hW : wb j = W e)
    (hB : ∀ k : Fin 16, bb (ix2 (j 0) k) = B (ix2 (e 0) k))
    (hA : ∀ k : Fin 16, ab (ix2 k (j 1)) = A (ix2 k (e 1))) :
    k0_pay1 (F := Ideal) bb ab wb j = Cert.LoraSpec.merged W B A e := by
  rw [stored_apply, hW]
  simp only [hB, hA]
  rfl

/-! ## From blocks to the array -/

section Array

variable (V : (c : Dev nD) → (b : Ref sig .tc) → Buf (Elt Ideal) ((c : Thread nD τ).loc b))

theorem off_zero : (![0, 0] : Fin 2 → Nat) = fun _ => 0 := funext fun a => by fin_cases a <;> rfl

/-- The block indices over the four grid points: the `W` and `B` windows move with the output's row block, `A` stays
    whole, every window is at column block zero, and the output's row block is at most 3. -/
theorem index_facts : ∀ t : Fin cfg0.N,
    win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 3 :=
  (by decide +kernel : ∀ t : Fin grid0.N, _)

/-- Every row block of the output is some point's. -/
theorem index_onto : ∀ q0 : Fin 4, ∃ t : Fin cfg0.N, win0_3.index t = ![q0.val, 0] :=
  (by decide +kernel : ∀ q0 : Fin 4, ∃ t : Fin grid0.N, win0_3.index t = ![q0.val, 0])

/-- What point `t` writes back is block `t` of the merged weight of the region's input arrays. -/
theorem flushed_eq (c : Dev nD) (t : Fin cfg0.N) :
    (dat0 V c).flushed 3 t = ((cfg0.win 3).blk t).view.read (Elt Ideal)
      (Cert.LoraSpec.merged (V c main_arg1) (V c main_arg3) (V c main_arg4)) := by
  show (cfg0.win 3).cut (grid0.coords t) ((dat0 V c).after 3 t) = _
  rw [after0_3]
  unfold out0_3
  rw [View.canon_unit_zero off_zero]
  simp only [View.ld_unit_zero (S := S512x16) off_zero, View.ld_unit_zero (S := S16x2048) off_zero, View.ld_unit_zero (S := S512x2048) off_zero]
  obtain ⟨e0, e1, e2, e3, e4, e5, e6, e7⟩ := index_facts t
  funext j
  refine point_eq (V c main_arg1) (V c main_arg3) (V c main_arg4) (iblk0 V c 0 t) (iblk0 V c 1 t) (iblk0 V c 2 t) j
    (((cfg0.win 3).blk t).view.emb j) ?_ ?_ ?_
  · show V c main_arg1 (((cfg0.win 0).blk t).view.emb j) = _
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * (j 1).val = win0_3.index t (1 : Fin 2) * 2048 + 1 * (j 1).val; omega
  · intro k
    show V c main_arg3 (((cfg0.win 1).blk t).view.emb (ix2 (j 0) k)) = _
    refine congrArg _ (funext fun a => Fin.ext ?_)
    match a with
    | ⟨0, _⟩ => show win0_1.index t (0 : Fin 2) * 512 + 1 * (j 0).val = win0_3.index t (0 : Fin 2) * 512 + 1 * (j 0).val; omega
    | ⟨1, _⟩ => show win0_1.index t (1 : Fin 2) * 16 + 1 * k.val = k.val; omega
  · intro k
    show V c main_arg4 (((cfg0.win 2).blk t).view.emb (ix2 k (j 1))) = _
    refine congrArg _ (funext fun a => Fin.ext ?_)
    match a with
    | ⟨0, _⟩ => show win0_2.index t (0 : Fin 2) * 16 + 1 * k.val = k.val; omega
    | ⟨1, _⟩ => show win0_2.index t (1 : Fin 2) * 2048 + 1 * (j 1).val = win0_3.index t (1 : Fin 2) * 2048 + 1 * (j 1).val; omega

/-- An index of the output array is in point `t`'s block iff each coordinate is in the block's range on its axis. -/
theorem mem_blk (t : Fin cfg0.N) (i : S2048x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v0).slice (win0_3.rect t)).set ↔ _
  rw [View.set_slice_whole, Rect.mem_set_unit]
  exact Iff.rfl

/-- The four row blocks cover the array: row `r` is in the block of the point whose row block is `r / 512`. -/
theorem cover (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- After the region its output array is the merged weight of its input arrays. -/
theorem final (c : Dev nD) :
    (dat0 V c).arrAt 3 cfg0.N = Cert.LoraSpec.merged (V c main_arg1) (V c main_arg3) (V c main_arg4) :=
  (dat0 V c).arrAt_eq_of_cover 3 _ (fun t _ => flushed_eq V c t) cover

end Array

end Cert.KernelIdeal.Merge

end
-- ==== Proof.LinearRegion.lean ====
/-
  The second kernel region (the linear layer), read as a value at the exact instance.

  Its grid is 8 × 4; point `(b, s)` stages rows `512·s … 512·s + 511` of batch `b` of `X`, the whole weight `M` and the
  whole bias, and writes the same rows of the result. The body's stored value at row `p`, column `o` of the block is
  `(Σ_d Xblk[p, d] · M[o, d]) + bias[o]`: the product contracts the feature axis of both operands into a zero
  accumulator, the changes of format are the identity on the extended reals, and the reshapes only add or drop a unit
  axis. The thirty-two blocks tile the array, so after the region the output array is `LoraSpec.linear` of the
  region's input arrays, whatever those are.
-/
import proofs.«166567_j55319178772936_1_alg».proof.Proof.Gen.KernelIdeal.Frame
import proofs.«166567_j55319178772936_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product, read at an index -/

theorem lhs_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The block's product with the weight's rows into a zero accumulator: `(Xblk · Mᵀ)[p, o] = Σ_d Xblk[p, d] · M[o, d]`. -/
theorem product_apply (l : FVec Ideal S512x2048 .bf16) (r : FVec Ideal S2048x2048 .bf16) (i : S512x2048.Idx) :
    matmul dot_S512x2048_S2048x2048_S512x2048_1_1_0_0_n_n none l r (constant (F := Ideal) S512x2048 .f32 0x00000000#32) i
      = ∑ k : Fin 2048, l (ix2 (i 0) k) * r (ix2 (i 1) k) := by
  show FloatOps.matmul dot_S512x2048_S2048x2048_S512x2048_1_1_0_0_n_n none l r (constant (F := Ideal) S512x2048 .f32 0x00000000#32) i = _
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx i ((ValueIdx.contrEquiv1 dot_S512x2048_S2048x2048_S512x2048_1_1_0_0_n_n 2048 rfl rfl).symm k) = ix2 (i 0) k := funext fun a => Fin.ext (by
    match a with
    | ⟨0, _⟩ => exact lhs_0 _ _
    | ⟨1, _⟩ => exact (lhs_1 _ _).trans hk)
  have er : dot_S512x2048_S2048x2048_S512x2048_1_1_0_0_n_n.rhsIdx i ((ValueIdx.contrEquiv1 dot_S512x2048_S2048x2048_S512x2048_1_1_0_0_n_n 2048 rfl rfl).symm k) = ix2 (i 1) k := funext fun a => Fin.ext (by
    match a with
    | ⟨0, _⟩ => exact rhs_0 _ _
    | ⟨1, _⟩ => exact (rhs_1 _ _).trans hk)
  rw [el, er]
  rfl

/-! ## The reshapes and the broadcast, read at an index -/

/-- The staged block `[1, 512, 2048]` viewed `[512, 2048]` and narrowed: entry `(p, d)` is entry `(0, p, d)`. -/
theorem rows_apply (v0 : FVec Ideal S1x512x2048 .f32) (i : S512x2048.Idx) :
    truncf .bf16 (shapeCast S512x2048 v0 shapeCasts_S1x512x2048_S512x2048) bitsLt_bf16_f32 i = v0 (ix3 (0 : Fin 1) (i 0) (i 1)) := by
  show shapeCast S512x2048 v0 shapeCasts_S1x512x2048_S512x2048 i = _
  rw [shapeCast_dropUnit_apply]
  refine congrArg v0 (funext fun a => ?_)
  match a with
  | ⟨0, _⟩ => rfl
  | ⟨1, _⟩ => rfl
  | ⟨2, _⟩ => rfl

/-- The bias `[2048]` viewed `[1, 2048]` and broadcast along the rows: entry `(p, o)` is `bias[o]`. -/
theorem bias_apply (v6 : FVec Ideal S2048 .f32) (i : S512x2048.Idx) :
    broadcastTo S512x2048 (shapeCast S1x2048 v6 shapeCasts_S2048_S1x2048) broadcasts_S1x2048_S512x2048 i = v6 (ix1 (i 1)) := by
  rw [broadcastTo_apply _ broadcasts_S1x2048_S512x2048 i (ix2 (0 : Fin 1) (i 1)) (fun a => by
    match a with
    | ⟨0, _⟩ => show (0 : ℕ) = if (1 : ℕ) = 1 then 0 else _; rw [if_pos rfl]
    | ⟨1, _⟩ => show (i 1).val = if (2048 : ℕ) = 1 then 0 else _; rw [if_neg (by decide)]; rfl)]
  rw [shapeCast_addUnit_apply]
  refine congrArg v6 (funext fun a => ?_)
  match a with
  | ⟨0, _⟩ => rfl

/-- The body's value before its last reshape, entry by entry: `(Σ_d Xblk[0, p, d] · M[o, d]) + bias[o]`. -/
theorem inner_apply (v0 : FVec Ideal S1x512x2048 .f32) (v3 : FVec Ideal S2048x2048 .bf16) (v6 : FVec Ideal S2048 .f32) (i : S512x2048.Idx) :
    addf (matmul dot_S512x2048_S2048x2048_S512x2048_1_1_0_0_n_n none
        (truncf .bf16 (shapeCast S512x2048 v0 shapeCasts_S1x512x2048_S512x2048) bitsLt_bf16_f32)
        (shapeCast S2048x2048 v3 shapeCasts_S2048x2048_S2048x2048) (constant (F := Ideal) S512x2048 .f32 0x00000000#32))
      (broadcastTo S512x2048 (shapeCast S1x2048 v6 shapeCasts_S2048_S1x2048) broadcasts_S1x2048_S512x2048) i
      = (∑ d : Fin 2048, v0 (ix3 (0 : Fin 1) (i 0) d) * v3 (ix2 (i 1) d)) + v6 (ix1 (i 1)) := by
  show matmul dot_S512x2048_S2048x2048_S512x2048_1_1_0_0_n_n none
        (truncf .bf16 (shapeCast S512x2048 v0 shapeCasts_S1x512x2048_S512x2048) bitsLt_bf16_f32)
        (shapeCast S2048x2048 v3 shapeCasts_S2048x2048_S2048x2048) (constant (F := Ideal) S512x2048 .f32 0x00000000#32) i
      + broadcastTo S512x2048 (shapeCast S1x2048 v6 shapeCasts_S2048_S1x2048) broadcasts_S1x2048_S512x2048 i = _
  rw [product_apply, bias_apply, shapeCast_self]
  simp only [rows_apply]

/-- What the body stores, entry by entry: the value above with a unit axis added in front. -/
theorem stored_apply (v0 : FVec Ideal S1x512x2048 .f32) (v3 : FVec Ideal S2048x2048 .bf16) (v6 : FVec Ideal S2048 .f32) (j : S1x512x2048.Idx) :
    k1_pay1 (F := Ideal) v0 v3 v6 j
      = (∑ d : Fin 2048, v0 (ix3 (0 : Fin 1) (j 1) d) * v3 (ix2 (j 2) d)) + v6 (ix1 (j 2)) := by
  unfold k1_pay1
  exact (shapeCast_addUnit_apply ![512, 2048] _ shapeCasts_S512x2048_S1x512x2048 j).trans
    (inner_apply v0 v3 v6 (fun a => j a.succ))

/-- One stored entry against the specification, over plain arrays: if the `X` block's row is row `(e 0, e 1)` of `X`,
    the staged weight's row is row `e 2` of `M`, and the staged bias entry is `bias[e 2]`, the stored entry is the
    linear layer at `e`. -/
theorem point_eq (X : FVec Ideal S8x2048x2048 .f32) (M : FVec Ideal S2048x2048 .bf16) (bias : FVec Ideal S2048 .f32)
    (xb : FVec Ideal S1x512x2048 .f32) (mb : FVec Ideal S2048x2048 .bf16) (bb : FVec Ideal S2048 .f32)
    (j : S1x512x2048.Idx) (e : S8x2048x2048.Idx)
    (hX : ∀ d : Fin 2048, xb (ix3 (0 : Fin 1) (j 1) d) = X (ix3 (e 0) (e 1) d))
    (hM : ∀ d : Fin 2048, mb (ix2 (j 2) d) = M (ix2 (e 2) d))
    (hb : bb (ix1 (j 2)) = bias (ix1 (e 2))) :
    k1_pay1 (F := Ideal) xb mb bb j = Cert.LoraSpec.linear X M bias e := by
  rw [stored_apply, hb]
  simp only [hX, hM]
  rfl

/-! ## From blocks to the array -/

section Array

variable (V : (c : Dev nD) → (b : Ref sig .tc) → Buf (Elt Ideal) ((c : Thread nD τ).loc b))

theorem off_zero3 : (![0, 0, 0] : Fin 3 → Nat) = fun _ => 0 := funext fun a => by fin_cases a <;> rfl
theorem off_zero2 : (![0, 0] : Fin 2 → Nat) = fun _ => 0 := funext fun a => by fin_cases a <;> rfl
theorem off_zero1 : (![0] : Fin 1 → Nat) = fun _ => 0 := funext fun a => by fin_cases a; rfl

/-- The block indices over the thirty-two grid points: the `X` window moves with the output's batch and row block, the
    weight and the bias stay whole, the feature axis is never split, and the output's block indices are at most 7 and 3. -/
theorem index_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 2) = 0
    ∧ win1_1.index t (1 : Fin 2) = 0
    ∧ win1_2.index t (0 : Fin 1) = 0
    ∧ win1_3.index t (2 : Fin 3) = 0
    ∧ win1_3.index t (0 : Fin 3) ≤ 7
    ∧ win1_3.index t (1 : Fin 3) ≤ 3 :=
  (by decide +kernel : ∀ t : Fin grid1.N, _)

/-- Every (batch, row block) pair of the output is some point's. -/
theorem index_onto : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- What point `t` writes back is block `t` of the linear layer of the region's input arrays. -/
theorem flushed_eq (c : Dev nD) (t : Fin cfg1.N) :
    (dat1 V c).flushed 3 t = ((cfg1.win 3).blk t).view.read (Elt Ideal)
      (Cert.LoraSpec.linear (V c main_arg0) (V c main_v0) (V c main_arg2)) := by
  show (cfg1.win 3).cut (grid1.coords t) ((dat1 V c).after 3 t) = _
  rw [after1_3]
  unfold out1_3
  rw [View.canon_unit_zero off_zero3]
  simp only [View.ld_unit_zero (S := S1x512x2048) off_zero3, View.ld_unit_zero (S := S2048x2048) off_zero2, View.ld_unit_zero (S := S2048) off_zero1]
  obtain ⟨e0, e1, e2, e3, e4, e5, e6, e7, e8⟩ := index_facts t
  funext j
  have hj0 : (j 0).val < 1 := (j 0).isLt
  refine point_eq (V c main_arg0) (V c main_v0) (V c main_arg2) (iblk1 V c 0 t) (iblk1 V c 1 t) (iblk1 V c 2 t) j
    (((cfg1.win 3).blk t).view.emb j) ?_ ?_ ?_
  · intro d
    show V c main_arg0 (((cfg1.win 0).blk t).view.emb (ix3 (0 : Fin 1) (j 1) d)) = _
    refine congrArg _ (funext fun a => Fin.ext ?_)
    match a with
    | ⟨0, _⟩ => show win1_0.index t (0 : Fin 3) * 1 + 1 * 0 = win1_3.index t (0 : Fin 3) * 1 + 1 * (j 0).val; omega
    | ⟨1, _⟩ => show win1_0.index t (1 : Fin 3) * 512 + 1 * (j 1).val = win1_3.index t (1 : Fin 3) * 512 + 1 * (j 1).val; omega
    | ⟨2, _⟩ => show win1_0.index t (2 : Fin 3) * 2048 + 1 * d.val = d.val; omega
  · intro d
    show V c main_v0 (((cfg1.win 1).blk t).view.emb (ix2 (j 2) d)) = _
    refine congrArg _ (funext fun a => Fin.ext ?_)
    match a with
    | ⟨0, _⟩ => show win1_1.index t (0 : Fin 2) * 2048 + 1 * (j 2).val = win1_3.index t (2 : Fin 3) * 2048 + 1 * (j 2).val; omega
    | ⟨1, _⟩ => show win1_1.index t (1 : Fin 2) * 2048 + 1 * d.val = d.val; omega
  · show V c main_arg2 (((cfg1.win 2).blk t).view.emb (ix1 (j 2))) = _
    refine congrArg _ (funext fun a => Fin.ext ?_)
    match a with
    | ⟨0, _⟩ => show win1_2.index t (0 : Fin 1) * 2048 + 1 * (j 2).val = win1_3.index t (2 : Fin 3) * 2048 + 1 * (j 2).val; omega

/-- An index of the output array is in point `t`'s block iff each coordinate is in the block's range on its axis. -/
theorem mem_blk (t : Fin cfg1.N) (i : S8x2048x2048.Idx) :
    i ∈ ((cfg1.win 3).blk t).view.set ↔ ∀ a : Fin 3, win1_3.index t a * S1x512x2048.size a ≤ (i a).val ∧ (i a).val < win1_3.index t a * S1x512x2048.size a + S1x512x2048.size a := by
  show i ∈ ((View.whole main_v1).slice (win1_3.rect t)).set ↔ _
  rw [View.set_slice_whole, Rect.mem_set_unit]
  exact Iff.rfl

/-- The blocks cover the array: entry `(b, r, o)` is in the block of the point at batch `b`, row block `r / 512`. -/
theorem cover (i : S8x2048x2048.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 2048 ≤ (i 2).val ∧ (i 2).val < win1_3.index t (2 : Fin 3) * 2048 + 2048; omega

/-- After the region its output array is the linear layer of its input arrays. -/
theorem final (c : Dev nD) :
    (dat1 V c).arrAt 3 cfg1.N = Cert.LoraSpec.linear (V c main_arg0) (V c main_v0) (V c main_arg2) :=
  (dat1 V c).arrAt_eq_of_cover 3 _ (fun t _ => flushed_eq V c t) cover

end Array

end Cert.KernelIdeal.Linear

end
-- ==== Proof.KernelValue.lean ====
/-
  The kernel program's result as one function of the argument arrays.

  The second region finds the arguments `X` and `bias` as launched (the first region does not write them) and, in the
  buffer between the two regions, the first region's output, which is the merged weight of the launched `W`, `B`, `A`.
  So the result buffer ends at the linear layer of `X`, that merged weight and `bias`: `LoraSpec.result` of the five
  argument arrays.
-/
import proofs.«166567_j55319178772936_1_alg».proof.Proof.KernelIdealRun
import proofs.«166567_j55319178772936_1_alg».proof.Proof.MergeRegion
import proofs.«166567_j55319178772936_1_alg».proof.Proof.LinearRegion

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second region's output array after its last write-back, as a function of the launch memory. -/
theorem value_eq (c : Dev nD) :
    (dat1 (V1 m ρ) c).arrAt 3 cfg1.N
      = Cert.LoraSpec.result (m ((c : Thread nD τ).loc main_arg0)) (m ((c : Thread nD τ).loc main_arg1))
          (m ((c : Thread nD τ).loc main_arg2)) (m ((c : Thread nD τ).loc main_arg3)) (m ((c : Thread nD τ).loc main_arg4)) := by
  have hx : V1 m ρ c main_arg0 = m ((c : Thread nD τ).loc main_arg0) := W1_of_ne m ρ c main_arg0 (by decide)
  have hb : V1 m ρ c main_arg2 = m ((c : Thread nD τ).loc main_arg2) := W1_of_ne m ρ c main_arg2 (by decide)
  have hw : V1 m ρ c main_v0 = Cert.LoraSpec.merged (m ((c : Thread nD τ).loc main_arg1)) (m ((c : Thread nD τ).loc main_arg3)) (m ((c : Thread nD τ).loc main_arg4)) :=
    (W1_arr m ρ c 3).trans (Cert.KernelIdeal.Merge.final (V0 m ρ) c)
  rw [Cert.KernelIdeal.Linear.final (V1 m ρ) c, hx, hb, hw]
  rfl

/-- The run of @main with the result at its function of the arguments, the arguments unchanged. -/
theorem run : θ_run defs (onTc (τ := τ) (main (F := Ideal))) ⟨m, fun _ => 0, ρ⟩ (fun r => ∀ c : Dev nD,
      r.2.mem ((c.tc : Thread nD τ).loc main_v1)
        = Cert.LoraSpec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value_eq m ρ c), (h c).2⟩)
    (Cert.KernelIdeal.Named.run_named m ρ)

end Cert.KernelIdeal.Whole

end
-- ==== Proof.RefValue.lean ====
/-
  The reference computes the specification: its merged weight `W + 2 · (B · A)` is `LoraSpec.merged`, and its
  einsum over the feature axis followed by the broadcast bias is `LoraSpec.linear` of it. Each host operation is read at
  an index (a `dot_general` with one contracted axis as a sum over that axis), and the index functions of the
  reading lemmas are the coordinate constructors the specification is written with.
-/
import proofs.«166567_j55319178772936_1_alg».proof.Proof.Gen.ReferenceIdeal.Run
import proofs.«166567_j55319178772936_1_alg».proof.Proof.Gen.ReferenceIdeal.Read
import proofs.«166567_j55319178772936_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's merged weight, entry by entry: `W[o, d] + 2 · Σ_r B[o, r] · A[r, d]`. -/
theorem weight_eq (x1 : FVec Ideal S2048x2048 .f32) (x3 : FVec Ideal S2048x16 .f32) (x4 : FVec Ideal S16x2048 .f32) :
    val_main_v3 (F := Ideal) x1 x3 x4 = Cert.LoraSpec.merged x1 x3 x4 := by
  funext j
  rw [val_main_v3_apply, val_main_v2_apply, val_main_v1_apply, val_main_cst_apply, val_main_v0_apply]
  have el : ∀ k : Fin 16, lidx_main_v0 j k = ix2 (j 0) k := fun k => funext fun a => Fin.ext (by
    match a with
    | ⟨0, _⟩ => rfl
    | ⟨1, _⟩ => rfl)
  have er : ∀ k : Fin 16, ridx_main_v0 j k = ix2 k (j 1) := fun k => funext fun a => Fin.ext (by
    match a with
    | ⟨0, _⟩ => rfl
    | ⟨1, _⟩ => rfl)
  simp only [el, er]
  rfl

/-- The reference's result, entry by entry: `(Σ_d X[b, s, d] · M[o, d]) + bias[o]` with `M` the merged weight. -/
theorem result_eq (x0 : FVec Ideal S8x2048x2048 .f32) (x1 : FVec Ideal S2048x2048 .f32) (x2 : FVec Ideal S2048 .f32)
    (x3 : FVec Ideal S2048x16 .f32) (x4 : FVec Ideal S16x2048 .f32) :
    val_main_v7 (F := Ideal) x0 x1 x2 x3 x4 = Cert.LoraSpec.result x0 x1 x2 x3 x4 := by
  funext i
  rw [val_main_v7_apply, val_main_v4_apply, val_main_v6_apply, val_main_v5_apply, weight_eq]
  have el : ∀ k : Fin 2048, lidx_main_v4 i k = ix3 (i 0) (i 1) k := fun k => funext fun a => Fin.ext (by
    match a with
    | ⟨0, _⟩ => rfl
    | ⟨1, _⟩ => rfl
    | ⟨2, _⟩ => rfl)
  have er : ∀ k : Fin 2048, ridx_main_v4 i k = ix2 (i 2) k := fun k => funext fun a => Fin.ext (by
    match a with
    | ⟨0, _⟩ => rfl
    | ⟨1, _⟩ => rfl)
  have eb : idx_main_v5 (idx_main_v6 i) = ix1 (i 2) := funext fun a => Fin.ext (by
    match a with
    | ⟨0, _⟩ => rfl)
  simp only [el, er, eb]
  rfl

end Cert.ReferenceIdeal.RefValue

end
-- ==== Proof.lean ====
/-
  A LoRA-merged linear layer: `Y[b, s, o] = (Σ_d X[b, s, d] · M[o, d]) + bias[o]` with the merged weight
  `M[o, d] = W[o, d] + 2 · Σ_r B[o, r] · A[r, d]`.

  The kernel program computes `M` in one tiled region (four row blocks, stored as bf16) and `Y` in a second (thirty-two
  row blocks of the batches, each a product of a bf16 block of `X` with the whole `M`, plus the bias); the reference
  computes the same two stages as whole-array host operations. On the extended reals a change of float format is the
  identity and a product into a zero accumulator is the plain sum, so both programs end at the same function of the five
  arguments, `LoraSpec.result`, entry by entry, with the sums in the same order: no law of arithmetic beyond that is
  used, and the finiteness of the inputs is never opened. The idealization rewrote nothing, so the kernel's idealized
  program is its own text read at the exact instance.
-/
import proofs.«166567_j55319178772936_1_alg».proof.Defs
import proofs.«166567_j55319178772936_1_alg».proof.Proof.Gen.Kernel
import proofs.«166567_j55319178772936_1_alg».proof.Proof.Gen.Kernel.Skeleton
import proofs.«166567_j55319178772936_1_alg».proof.Proof.Gen.Kernel.Launch
import proofs.«166567_j55319178772936_1_alg».proof.Proof.Gen.Kernel.Points
import proofs.«166567_j55319178772936_1_alg».proof.Proof.Gen.Kernel.Frame
import proofs.«166567_j55319178772936_1_alg».proof.Proof.Gen.KernelIdeal
import proofs.«166567_j55319178772936_1_alg».proof.Proof.Gen.KernelIdeal.Skeleton
import proofs.«166567_j55319178772936_1_alg».proof.Proof.Gen.KernelIdeal.Launch
import proofs.«166567_j55319178772936_1_alg».proof.Proof.Gen.KernelIdeal.Points
import proofs.«166567_j55319178772936_1_alg».proof.Proof.Gen.KernelIdeal.Frame
import proofs.«166567_j55319178772936_1_alg».proof.Proof.Gen.ReferenceIdeal
import proofs.«166567_j55319178772936_1_alg».proof.Proof.Gen.Pre_finite_inputs
import proofs.«166567_j55319178772936_1_alg».proof.Proof.KernelValue
import proofs.«166567_j55319178772936_1_alg».proof.Proof.RefValue
import Idealize.ShloMosaic.Adequacy
import Idealize.ShloMosaic.Init

noncomputable section

namespace Cert.Proof

open Idealize.ShloMosaic Idealize.SL.Sem

/-- The three programs run, fault-free, with their arguments unchanged: the two kernel programs by their two
    regions' pipelines, the reference by its host operations one after the other. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `LoraSpec.result` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
